-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x128 : Shape := ⟨2, ![512, 128]⟩
abbrev S256x512 : Shape := ⟨2, ![256, 512]⟩
abbrev S512 : Shape := ⟨1, ![512]⟩
abbrev S512x512 : Shape := ⟨2, ![512, 512]⟩
abbrev S512x1 : Shape := ⟨2, ![512, 1]⟩
abbrev S1 : Shape := ⟨1, ![1]⟩
abbrev S_ : Shape := ⟨0, ![]⟩

class Facts : Prop where
  bcast_S_S512x128 : S_.BroadcastsInDim S512x128 (![] : Fin 0 → Fin S512x128.rank)
  reducesTo_S512x128_S_d0_1 : S512x128.ReducesTo [0, 1] S_
  h_S_ : 0 < S_.numel
  bcast_S_S256x512 : S_.BroadcastsInDim S256x512 (![] : Fin 0 → Fin S256x512.rank)
  reducesTo_S256x512_S_d0_1 : S256x512.ReducesTo [0, 1] S_
  bcast_S_S512 : S_.BroadcastsInDim S512 (![] : Fin 0 → Fin S512.rank)
  reducesTo_S512_S_d0 : S512.ReducesTo [0] S_
  bcast_S_S512x512 : S_.BroadcastsInDim S512x512 (![] : Fin 0 → Fin S512x512.rank)
  reducesTo_S512x512_S_d0_1 : S512x512.ReducesTo [0, 1] S_
  bcast_S_S512x1 : S_.BroadcastsInDim S512x1 (![] : Fin 0 → Fin S512x1.rank)
  reducesTo_S512x1_S_d0_1 : S512x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S1 .f32) (main_v33 : IVec S_ 1) : IVec S_ 1 :=
  let main_v34 : FVec F S1 .f32 := Host.absf main_arg7
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  main_v38

def fn_part1 {F : FTy → Type} [FloatOps F] (main_arg4 : FVec F S512x512 .f32) (main_arg5 : FVec F S512 .f32) (main_arg6 : FVec F S512x1 .f32) (main_arg7 : FVec F S1 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x512 .f32 := Host.absf main_arg4
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512x1 .f32 := Host.absf main_arg6
  let main_cst_10 : FVec F S_ .f32 := constant S_ .f32 0x7F800000#32
  let main_v30 : FVec F S512x1 .f32 := broadcastInDim S512x1 ![] bcast_S_S512x1 main_cst_10
  let main_v31 : IVec S512x1 1 := cmpf .olt main_v29 main_v30
  let main_c_11 : IVec S_ 1 := constantI S_ 1 1#1
  let main_v32 : IVec S_ 1 := (fun x v => Host.reduce IntOp.andi x v reducesTo_S512x1_S_d0_1 h_S_) main_v31 main_c_11
  let main_v33 : IVec S_ 1 := andi main_v28 main_v32
  fn_part2 (F := F) main_arg7 main_v33

def fn {F : FTy → Type} [FloatOps F] (main_arg0 : FVec F S512x128 .f32) (main_arg1 : FVec F S512x128 .f32) (main_arg2 : FVec F S256x512 .f32) (main_arg3 : FVec F S512 .f32) (main_arg4 : FVec F S512x512 .f32) (main_arg5 : FVec F S512 .f32) (main_arg6 : FVec F S512x1 .f32) (main_arg7 : FVec F S1 .f32) : IVec S_ 1 :=
  let main_v0 : FVec F S512x128 .f32 := Host.absf main_arg0
  let main_cst : FVec F S_ .f32 := constant S_ .f32 0x7F800000#32
  let main_v1 : FVec F S512x128 .f32 := broadcastInDim S512x128 ![] bcast_S_S512x128 main_cst
  let main_v2 : IVec S512x128 1 := cmpf .olt main_v0 main_v1
  let main_c : IVec S_ 1 := constantI S_ 1 1#1
  let main_v3 : IVec S_ 1 := (fun x v => Host.reduce IntOp.andi x v reducesTo_S512x128_S_d0_1 h_S_) main_v2 main_c
  let main_v4 : FVec F S512x128 .f32 := Host.absf main_arg1
  let main_cst_0 : FVec F S_ .f32 := constant S_ .f32 0x7F800000#32
  let main_v5 : FVec F S512x128 .f32 := broadcastInDim S512x128 ![] bcast_S_S512x128 main_cst_0
  let main_v6 : IVec S512x128 1 := cmpf .olt main_v4 main_v5
  let main_c_1 : IVec S_ 1 := constantI S_ 1 1#1
  let main_v7 : IVec S_ 1 := (fun x v => Host.reduce IntOp.andi x v reducesTo_S512x128_S_d0_1 h_S_) main_v6 main_c_1
  let main_v8 : IVec S_ 1 := andi main_v3 main_v7
  let main_v9 : FVec F S256x512 .f32 := Host.absf main_arg2
  let main_cst_2 : FVec F S_ .f32 := constant S_ .f32 0x7F800000#32
  let main_v10 : FVec F S256x512 .f32 := broadcastInDim S256x512 ![] bcast_S_S256x512 main_cst_2
  let main_v11 : IVec S256x512 1 := cmpf .olt main_v9 main_v10
  let main_c_3 : IVec S_ 1 := constantI S_ 1 1#1
  let main_v12 : IVec S_ 1 := (fun x v => Host.reduce IntOp.andi x v reducesTo_S256x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_arg6 main_arg7 main_v13 main_v16
-- ==== Kernel.lean ====
abbrev S512x128 : Shape := ⟨2, ![512, 128]⟩
abbrev S256x512 : Shape := ⟨2, ![256, 512]⟩
abbrev S512 : Shape := ⟨1, ![512]⟩
abbrev S512x512 : Shape := ⟨2, ![512, 512]⟩
abbrev S512x1 : Shape := ⟨2, ![512, 1]⟩
abbrev S1 : Shape := ⟨1, ![1]⟩
abbrev S128x512 : Shape := ⟨2, ![128, 512]⟩
abbrev S1x512 : Shape := ⟨2, ![1, 512]⟩
abbrev S1x1 : Shape := ⟨2, ![1, 1]⟩
abbrev S512x512x1 : Shape := ⟨3, ![512, 512, 1]⟩
abbrev S32x512 : Shape := ⟨2, ![32, 512]⟩
abbrev S32x128x1 : Shape := ⟨3, ![32, 128, 1]⟩
abbrev S32x1x512 : Shape := ⟨3, ![32, 1, 512]⟩
abbrev S1x128x512 : Shape := ⟨3, ![1, 128, 512]⟩
abbrev S32x128x512 : Shape := ⟨3, ![32, 128, 512]⟩
abbrev S1x1x512 : Shape := ⟨3, ![1, 1, 512]⟩
abbrev S4096x512 : Shape := ⟨2, ![4096, 512]⟩
abbrev S4096x1 : Shape := ⟨2, ![4096, 1]⟩

abbrev nBuf : Space → Nat
  | .hbm => 17
  | .vmem => 11
  | .smem => 0
  | _ => 0

abbrev bufTy : (tb : Table) → Fin (tcTables nBuf tb) → BufTy
  | .hbm, ⟨0, _⟩ => ⟨S512x128, .f32⟩
  | .hbm, ⟨1, _⟩ => ⟨S512x128, .f32⟩
  | .hbm, ⟨2, _⟩ => ⟨S256x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S512x1, .f32⟩
  | .hbm, ⟨7, _⟩ => ⟨S1, .f32⟩
  | .hbm, ⟨8, _⟩ => ⟨S128x512, .f32⟩
  | .hbm, ⟨9, _⟩ => ⟨S128x512, .f32⟩
  | .hbm, ⟨10, _⟩ => ⟨S512x512, .f32⟩
  | .hbm, ⟨11, _⟩ => ⟨S512x512, .f32⟩
  | .hbm, ⟨12, _⟩ => ⟨S1x512, .f32⟩
  | .hbm, ⟨13, _⟩ => ⟨S1x512, .f32⟩
  | .hbm, ⟨14, _⟩ => ⟨S1x1, .f32⟩
  | .hbm, ⟨15, _⟩ => ⟨S512x512x1, .f32⟩
  | .hbm, ⟨16, _⟩ => ⟨S512x512, .f32⟩
  | .local _ .vmem, ⟨0, _⟩ => ⟨S32x512, .f32⟩
  | .local _ .vmem, ⟨1, _⟩ => ⟨S32x512, .f32⟩
  | .local _ .vmem, ⟨2, _⟩ => ⟨S128x512, .f32⟩
  | .local _ .vmem, ⟨3, _⟩ => ⟨S128x512, .f32⟩
  | .local _ .vmem, ⟨4, _⟩ => ⟨S1x512, .f32⟩
  | .local _ .vmem, ⟨5, _⟩ => ⟨S512x512, .f32⟩
  | .local _ .vmem, ⟨6, _⟩ => ⟨S1x512, .f32⟩
  | .local _ .vmem, ⟨7, _⟩ => ⟨S512x1, .f32⟩
  | .local _ .vmem, ⟨8, _⟩ => ⟨S1x1, .f32⟩
  | .local _ .vmem, ⟨9, _⟩ => ⟨S32x128x1, .f32⟩
  | .local _ .vmem, ⟨10, _⟩ => ⟨S32x128x1, .f32⟩
  | _, _ => ⟨S512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S32x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S32x128x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

class Facts₀ : Prop where
  slices_S256x512_S128x512_0_0 : S256x512.Slices ![0, 0] S128x512
  slices_S256x512_S128x512_128_0 : S256x512.Slices ![128, 0] S128x512
  shapeCasts_S512_S1x512 : S512.ShapeCasts S1x512
  shapeCasts_S1_S1x1 : S1.ShapeCasts S1x1
  inb_S32x512_S32x512_0_0 : ∀ a, (![0, 0] : Fin 2 → Nat) a + S32x512.size a ≤ S32x512.size a
  h_S32x512 : 0 < S32x512.numel
  shapeCasts_S32x512_S32x512 : S32x512.ShapeCasts S32x512
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  shapeCasts_S32x512_S32x1x512 : S32x512.ShapeCasts S32x1x512
  shapeCasts_S128x512_S1x128x512 : S128x512.ShapeCasts S1x128x512
  broadcasts_S32x1x512_S32x128x512 : S32x1x512.Broadcasts S32x128x512
  broadcasts_S1x128x512_S32x128x512 : S1x128x512.Broadcasts S32x128x512
  shapeCasts_S1x512_S1x1x512 : S1x512.ShapeCasts S1x1x512
  broadcasts_S1x1x512_S32x128x512 : S1x1x512.Broadcasts S32x128x512
  shapeCasts_S32x128x512_S4096x512 : S32x128x512.ShapeCasts S4096x512
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  broadcasts_S1x512_S4096x512 : S1x512.Broadcasts S4096x512
  inb_S512x1_S512x1_0_0 : ∀ a, (![0, 0] : Fin 2 → Nat) a + S512x1.size a ≤ S512x1.size a
  h_S512x1 : 0 < S512x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S4096x1 : S1x1.Broadcasts S4096x1
  shapeCasts_S4096x1_S32x128x1 : S4096x1.ShapeCasts S32x128x1
  inb_S32x128x1_S32x128x1_0_0_0 : ∀ a, (![0, 0, 0] : Fin 3 → Nat) a + S32x128x1.size a ≤ S32x128x1.size a
  h_S32x128x1 : 0 < S32x128x1.numel
  shapeCasts_S512x512x1_S512x512 : S512x512x1.ShapeCasts S512x512
  dot_S512x128_S128x512_S512x512_1_0_0_1_n_n_wf : DotDims.WF S512x128 S128x512 S512x512 [1] [0] [0] [1] [] []
  dot_S4096x512_S512x512_S4096x512_1_0_0_1_n_n_wf : DotDims.WF S4096x512 S512x512 S4096x512 [1] [0] [0] [1] [] []
  dot_S4096x512_S512x1_S4096x1_1_0_0_1_n_n_wf : DotDims.WF S4096x512 S512x1 S4096x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x512.size a ≤ S512x512.size a
  hwx0_0 : ∀ i : grid0.Coords, EltTy.bits .f32 = 32 ∨ (Rect.block (s := S512x512) S32x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x512.size a ≤ S512x512.size a
  hwx0_1 : ∀ i : grid0.Coords, EltTy.bits .f32 = 32 ∨ (Rect.block (s := S512x512) S128x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .f32 = 32 ∨ (Rect.block (s := S512x512) S512x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x1.size a ≤ S512x1.size a
  hwx0_5 : ∀ i : grid0.Coords, EltTy.bits .f32 = 32 ∨ (Rect.block (s := S512x1) S512x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1.size a ≤ S1x1.size a
  hwx0_6 : ∀ i : grid0.Coords, EltTy.bits .f32 = 32 ∨ (Rect.block (s := S1x1) S1x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S32x128x1.size a ≤ S512x512x1.size a
  hwx0_7 : ∀ i : grid0.Coords, EltTy.bits .f32 = 32 ∨ (Rect.block (s := S512x512x1) S32x128x1.size (cc0_transform_7 i) (hinb0_7 i)).WholeWords (EltTy.packing .f32)

variable [Facts₀]

def dot_S512x128_S128x512_S512x512_1_0_0_1_n_n : DotDims S512x128 S128x512 S512x512 where
  lhsContracting := [1]
  rhsContracting := [0]
  lhsNonContracting := [0]
  rhsNonContracting := [1]
  lhsBatch := []
  rhsBatch := []
  wf := dot_S512x128_S128x512_S512x512_1_0_0_1_n_n_wf
def dot_S4096x512_S512x512_S4096x512_1_0_0_1_n_n : DotDims S4096x512 S512x512 S4096x512 where
  lhsContracting := [1]
  rhsContracting := [0]
  lhsNonContracting := [0]
  rhsNonContracting := [1]
  lhsBatch := []
  rhsBatch := []
  wf := dot_S4096x512_S512x512_S4096x512_1_0_0_1_n_n_wf
def dot_S4096x512_S512x1_S4096x1_1_0_0_1_n_n : DotDims S4096x512 S512x1 S4096x1 where
  lhsContracting := [1]
  rhsContracting := [0]
  lhsNonContracting := [0]
  rhsNonContracting := [1]
  lhsBatch := []
  rhsBatch := []
  wf := dot_S4096x512_S512x1_S4096x1_1_0_0_1_n_n_wf

abbrev win0_0 : Pipeline.Window sig grid0 :=
  Pipeline.Window.ofSpec (Memref.whole main_v2) S32x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S128x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S512x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S1x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v7) S32x128x1.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S512x128 : Shape := ⟨2, ![512, 128]⟩
abbrev S256x512 : Shape := ⟨2, ![256, 512]⟩
abbrev S512 : Shape := ⟨1, ![512]⟩
abbrev S512x512 : Shape := ⟨2, ![512, 512]⟩
abbrev S512x1 : Shape := ⟨2, ![512, 1]⟩
abbrev S1 : Shape := ⟨1, ![1]⟩
abbrev S128x512 : Shape := ⟨2, ![128, 512]⟩
abbrev S512x1x512 : Shape := ⟨3, ![512, 1, 512]⟩
abbrev S1x512x512 : Shape := ⟨3, ![1, 512, 512]⟩
abbrev S512x512x512 : Shape := ⟨3, ![512, 512, 512]⟩
abbrev S1x1x512 : Shape := ⟨3, ![1, 1, 512]⟩
abbrev S_ : Shape := ⟨0, ![]⟩
abbrev S512x512x1 : Shape := ⟨3, ![512, 512, 1]⟩
abbrev S1x1x1 : Shape := ⟨3, ![1, 1, 1]⟩

abbrev nBuf : Space → Nat
  | .hbm => 35
  | .vmem => 0
  | .smem => 0
  | _ => 0

abbrev bufTy : (tb : Table) → Fin (tcTables nBuf tb) → BufTy
  | .hbm, ⟨0, _⟩ => ⟨S512x128, .f32⟩
  | .hbm, ⟨1, _⟩ => ⟨S512x128, .f32⟩
  | .hbm, ⟨2, _⟩ => ⟨S256x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S512x1, .f32⟩
  | .hbm, ⟨7, _⟩ => ⟨S1, .f32⟩
  | .hbm, ⟨8, _⟩ => ⟨S128x512, .f32⟩
  | .hbm, ⟨9, _⟩ => ⟨S128x512, .f32⟩
  | .hbm, ⟨10, _⟩ => ⟨S512x512, .f32⟩
  | .hbm, ⟨11, _⟩ => ⟨S512x512, .f32⟩
  | .hbm, ⟨12, _⟩ => ⟨S512x1x512, .f32⟩
  | .hbm, ⟨13, _⟩ => ⟨S1x512x512, .f32⟩
  | .hbm, ⟨14, _⟩ => ⟨S512x512x512, .f32⟩
  | .hbm, ⟨15, _⟩ => ⟨S512x512x512, .f32⟩
  | .hbm, ⟨16, _⟩ => ⟨S512x512x512, .f32⟩
  | .hbm, ⟨17, _⟩ => ⟨S1x1x512, .f32⟩
  | .hbm, ⟨18, _⟩ => ⟨S512x512x512, .f32⟩
  | .hbm, ⟨19, _⟩ => ⟨S512x512x512, .f32⟩
  | .hbm, ⟨20, _⟩ => ⟨S_, .f32⟩
  | .hbm, ⟨21, _⟩ => ⟨S512x512x512, .f32⟩
  | .hbm, ⟨22, _⟩ => ⟨S512x512x512, .f32⟩
  | .hbm, ⟨23, _⟩ => ⟨S512x512x512, .f32⟩
  | .hbm, ⟨24, _⟩ => ⟨S1x1x512, .f32⟩
  | .hbm, ⟨25, _⟩ => ⟨S512x512x512, .f32⟩
  | .hbm, ⟨26, _⟩ => ⟨S512x512x512, .f32⟩
  | .hbm, ⟨27, _⟩ => ⟨S_, .f32⟩
  | .hbm, ⟨28, _⟩ => ⟨S512x512x512, .f32⟩
  | .hbm, ⟨29, _⟩ => ⟨S512x512x512, .f32⟩
  | .hbm, ⟨30, _⟩ => ⟨S512x512x1, .f32⟩
  | .hbm, ⟨31, _⟩ => ⟨S1x1x1, .f32⟩
  | .hbm, ⟨32, _⟩ => ⟨S512x512x1, .f32⟩
  | .hbm, ⟨33, _⟩ => ⟨S512x512x1, .f32⟩
  | .hbm, ⟨34, _⟩ => ⟨S512x512, .f32⟩
  | _, _ => ⟨S512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_call0_cst : Ref sig .tc := ⟨.hbm, 20, rfl⟩
abbrev main_call0_v0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_call1_cst : Ref sig .tc := ⟨.hbm, 27, rfl⟩
abbrev main_call1_v0 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩

abbrev nD : Nat := 1
abbrev τ : Topo := Topo.v7x

variable {F : FTy → Type} [FloatOps F]

class Facts₀ : Prop where
  slices_S256x512_S128x512_0_0 : S256x512.Slices ![0, 0] S128x512
  slices_S256x512_S128x512_128_0 : S256x512.Slices ![128, 0] S128x512
  bcast_S512x512_S512x1x512_0_2 : S512x512.BroadcastsInDim S512x1x512 (![0, 2] : Fin 2 → Fin S512x1x512.rank)
  bcast_S512x512_S1x512x512_1_2 : S512x512.BroadcastsInDim S1x512x512 (![1, 2] : Fin 2 → Fin S1x512x512.rank)
  bcast_S512x1x512_S512x512x512_0_1_2 : S512x1x512.BroadcastsInDim S512x512x512 (![0, 1, 2] : Fin 3 → Fin S512x512x512.rank)
  bcast_S1x512x512_S512x512x512_0_1_2 : S1x512x512.BroadcastsInDim S512x512x512 (![0, 1, 2] : Fin 3 → Fin S512x512x512.rank)
  bcast_S512_S1x1x512_2 : S512.BroadcastsInDim S1x1x512 (![2] : Fin 1 → Fin S1x1x512.rank)
  bcast_S1x1x512_S512x512x512_0_1_2 : S1x1x512.BroadcastsInDim S512x512x512 (![0, 1, 2] : Fin 3 → Fin S512x512x512.rank)
  bcast_S_S512x512x512 : S_.BroadcastsInDim S512x512x512 (![] : Fin 0 → Fin S512x512x512.rank)
  bcast_S1_S1x1x1_2 : S1.BroadcastsInDim S1x1x1 (![2] : Fin 1 → Fin S1x1x1.rank)
  bcast_S1x1x1_S512x512x1_0_1_2 : S1x1x1.BroadcastsInDim S512x512x1 (![0, 1, 2] : Fin 3 → Fin S512x512x1.rank)
  shapeCasts_S512x512x1_S512x512 : S512x512x1.ShapeCasts S512x512
  dot_S512x128_S128x512_S512x512_1_0_0_1_n_n_wf : DotDims.WF S512x128 S128x512 S512x512 [1] [0] [0] [1] [] []
  dot_S512x512x512_S512x512_S512x512x512_2_0_01_1_n_n_wf : DotDims.WF S512x512x512 S512x512 S512x512x512 [2] [0] [0, 1] [1] [] []
  dot_S512x512x512_S512x1_S512x512x1_2_0_01_1_n_n_wf : DotDims.WF S512x512x512 S512x1 S512x512x1 [2] [0] [0, 1] [1] [] []

variable [Facts₀]

def dot_S512x128_S128x512_S512x512_1_0_0_1_n_n : DotDims S512x128 S128x512 S512x512 where
  lhsContracting := [1]
  rhsContracting := [0]
  lhsNonContracting := [0]
  rhsNonContracting := [1]
  lhsBatch := []
  rhsBatch := []
  wf := dot_S512x128_S128x512_S512x512_1_0_0_1_n_n_wf
def dot_S512x512x512_S512x512_S512x512x512_2_0_01_1_n_n : DotDims S512x512x512 S512x512 S512x512x512 where
  lhsContracting := [2]
  rhsContracting := [0]
  lhsNonContracting := [0, 1]
  rhsNonContracting := [1]
  lhsBatch := []
  rhsBatch := []
  wf := dot_S512x512x512_S512x512_S512x512x512_2_0_01_1_n_n_wf
def dot_S512x512x512_S512x1_S512x512x1_2_0_01_1_n_n : DotDims S512x512x512 S512x1 S512x512x1 where
  lhsContracting := [2]
  rhsContracting := [0]
  lhsNonContracting := [0, 1]
  rhsNonContracting := [1]
  lhsBatch := []
  rhsBatch := []
  wf := dot_S512x512x512_S512x1_S512x512x1_2_0_01_1_n_n_wf

class Facts : Prop extends Facts₀ where

variable [Facts]
-- ==== Proof.Spec.lean ====
/-
  The pairwise scorer as one function of its arrays, on the extended reals.

  A pair of projected rows u = hx[i,·], v = hy[j,·] goes through a two-layer rectified network:
    hidden1[k] = max (u[k] + v[k] + b1[k]) 0
    hidden2[q] = max (Σ_k hidden1[k] · W2[k,q] + b2[q]) 0
    score      = Σ_q hidden2[q] · W3[q] + b3
  The score of the pair (i, j) is this network at rows i of hx and j of hy. Nothing below needs the entries to be
  finite: both programs compute this very expression, sums in the same index sets.
-/
import Idealize.ShloMosaic.PureOps.Ideal
import Idealize.ShloMosaic.Lib.ValueIdx

noncomputable section

open scoped BigOperators

namespace Cert.PairScore

open Idealize.ShloMosaic Idealize.ShloMosaic.ValueIdx

/-- The rectifier's floor: the float word of +0.0, read on the extended reals. -/
abbrev floor0 : EReal := Ideal.ofBits .f32 0x00000000#32

/-- The network on one pair of rows. -/
def net (u v b1 : Fin 512 → EReal) (W2 : Fin 512 → Fin 512 → EReal) (b2 W3 : Fin 512 → EReal) (b3 : EReal) : EReal :=
  (∑ q : Fin 512, max ((∑ k : Fin 512, max ((u k + v k) + b1 k) floor0 * W2 k q) + b2 q) floor0 * W3 q) + b3

/-- The network depends on its arrays entry by entry. -/
theorem net_congr {u u' v v' b1 b1' : Fin 512 → EReal} {W2 W2' : Fin 512 → Fin 512 → EReal} {b2 b2' W3 W3' : Fin 512 → EReal}
    {b3 b3' : EReal} (hu : ∀ k, u k = u' k) (hv : ∀ k, v k = v' k) (h1 : ∀ k, b1 k = b1' k) (hW2 : ∀ k q, W2 k q = W2' k q)
    (h2 : ∀ q, b2 q = b2' q) (hW3 : ∀ q, W3 q = W3' q) (h3 : b3 = b3') :
    net u v b1 W2 b2 W3 b3 = net u' v' b1' W2' b2' W3' b3' := by
  obtain rfl : u = u' := funext hu
  obtain rfl : v = v' := funext hv
  obtain rfl : b1 = b1' := funext h1
  obtain rfl : W2 = W2' := funext fun k => funext (hW2 k)
  obtain rfl : b2 = b2' := funext h2
  obtain rfl : W3 = W3' := funext hW3
  subst h3
  rfl

/-- The score of the pair (i, j): the network at row i of hx and row j of hy. -/
def score (hx hy : (⟨2, ![512, 512]⟩ : Shape).Idx → EReal) (b1 : (⟨1, ![512]⟩ : Shape).Idx → EReal)
    (W2 : (⟨2, ![512, 512]⟩ : Shape).Idx → EReal) (b2 : (⟨1, ![512]⟩ : Shape).Idx → EReal)
    (W3 : (⟨2, ![512, 1]⟩ : Shape).Idx → EReal) (b3 : (⟨1, ![1]⟩ : Shape).Idx → EReal) (i j : Fin 512) : EReal :=
  net (fun k => hx (ix2 i k)) (fun k => hy (ix2 j k)) (fun k => b1 (ix1 k)) (fun k q => W2 (ix2 k q)) (fun q => b2 (ix1 q))
    (fun q => W3 (ix2 q (0 : Fin 1))) (b3 (ix1 (0 : Fin 1)))

/-- All scores, as the [512, 512, 1] array the kernel writes. -/
def scores3 (hx hy : (⟨2, ![512, 512]⟩ : Shape).Idx → EReal) (b1 : (⟨1, ![512]⟩ : Shape).Idx → EReal)
    (W2 : (⟨2, ![512, 512]⟩ : Shape).Idx → EReal) (b2 : (⟨1, ![512]⟩ : Shape).Idx → EReal)
    (W3 : (⟨2, ![512, 1]⟩ : Shape).Idx → EReal) (b3 : (⟨1, ![1]⟩ : Shape).Idx → EReal) :
    (⟨3, ![512, 512, 1]⟩ : Shape).Idx → EReal :=
  fun i => score hx hy b1 W2 b2 W3 b3 (i 0) (i 1)

/-- All scores, as the [512, 512] matrix both programs return. -/
def scores2 (hx hy : (⟨2, ![512, 512]⟩ : Shape).Idx → EReal) (b1 : (⟨1, ![512]⟩ : Shape).Idx → EReal)
    (W2 : (⟨2, ![512, 512]⟩ : Shape).Idx → EReal) (b2 : (⟨1, ![512]⟩ : Shape).Idx → EReal)
    (W3 : (⟨2, ![512, 1]⟩ : Shape).Idx → EReal) (b3 : (⟨1, ![1]⟩ : Shape).Idx → EReal) :
    (⟨2, ![512, 512]⟩ : Shape).Idx → EReal :=
  fun i => score hx hy b1 W2 b2 W3 b3 (i 0) (i 1)

end Cert.PairScore

end
-- ==== Proof.LibPlainDot.lean ====
/-
  A plain matrix product read at an index, on the extended reals.

  For the dimension numbers of an M×K by K×N product (contract the left operand's axis 1 with the right operand's axis 0,
  no batch axis) the vector unit's product into a zero accumulator, and the host's `dot_general`, both hold at (p, q)
  the sum over k of L[p,k] · R[k,q]. When the right operand is a stored [N, K] matrix transposed, the entry is the
  sum over k of L[p,k] · W[q,k]. Generic in the three extents.
-/
import Idealize.ShloMosaic.PureOps.Ideal.Laws
import Idealize.ShloMosaic.Lib.ValueIdx
import Idealize.ShloMosaic.Lib.ValueLayout

noncomputable section

open scoped BigOperators

namespace Cert.PlainDot

open Idealize.ShloMosaic Idealize.ShloMosaic.ValueIdx

variable {M K N : Nat}

theorem lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

theorem lhs1 (i : (⟨2, ![M, N]⟩ : Shape).Idx) (q : (DotDims.plain M K N).contr.Idx) :
    ((DotDims.plain M K N).lhsIdx i q 1).val = (q ⟨0, Nat.lt_of_lt_of_eq Nat.one_pos (Eq.symm (rfl : (DotDims.plain M K N).contr.rank = 1))⟩).val :=
  (DotDims.plain M K N).lhsIdx_val_of_single rfl i q

theorem rhs0 (i : (⟨2, ![M, N]⟩ : Shape).Idx) (q : (DotDims.plain M K N).contr.Idx) :
    ((DotDims.plain M K N).rhsIdx i q 0).val = (q ⟨0, Nat.lt_of_lt_of_eq Nat.one_pos (Eq.symm (rfl : (DotDims.plain M K N).contr.rank = 1))⟩).val :=
  (DotDims.plain M K N).rhsIdx_val_of_single rfl i q

theorem rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The contraction's sum re-indexed by its one coordinate. -/
theorem sum_contr {φ₁ φ₂ : FTy} (L : FVec Ideal ⟨2, ![M, K]⟩ φ₁) (R : FVec Ideal ⟨2, ![K, N]⟩ φ₂) (p : Fin M) (q : Fin N) :
    (∑ k : (DotDims.plain M K N).contr.Idx, L ((DotDims.plain M K N).lhsIdx (ix2 p q) k) * R ((DotDims.plain M K N).rhsIdx (ix2 p q) k))
      = ∑ k : Fin K, L (ix2 p k) * R (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs0 _ _
      | ⟨1, _⟩ => exact (lhs1 _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs0 _ _).trans hk
      | ⟨1, _⟩ => exact rhs1 _ _)
  rw [el, er]

/-- The vector unit's product into the zero accumulator, at (p, q). -/
theorem matmul_zero_apply {φ₁ φ₂ : FTy} (prec : Option ContractPrecision) (L : FVec Ideal ⟨2, ![M, K]⟩ φ₁)
    (R : FVec Ideal ⟨2, ![K, N]⟩ φ₂) (p : Fin M) (q : Fin N) :
    FloatOps.matmul (DotDims.plain M K N) prec L R (constant ⟨2, ![M, N]⟩ .f32 0x00000000#32) (ix2 p q)
      = ∑ k : Fin K, L (ix2 p k) * R (ix2 k q) := by
  rw [Ideal.matmul_constant_zero_apply]
  exact sum_contr L R p q

/-- The host's product, at (p, q). -/
theorem dotGeneral_apply {φ₁ φ₂ : FTy} (prec : Option ContractPrecision) (sched : HostSchedule) (L : FVec Ideal ⟨2, ![M, K]⟩ φ₁)
    (R : FVec Ideal ⟨2, ![K, N]⟩ φ₂) (p : Fin M) (q : Fin N) :
    FloatOps.dotGeneral (DotDims.plain M K N) prec sched L R (ix2 p q) = ∑ k : Fin K, L (ix2 p k) * R (ix2 k q) := by
  rw [Ideal.dotGeneral_apply]
  exact sum_contr L R p q

/-- Against a stored [N, K] matrix transposed: the sum runs over the stored matrix's second coordinate. -/
theorem matmul_zero_transposed_apply {φ₁ φ₂ : FTy} (prec : Option ContractPrecision) (L : FVec Ideal ⟨2, ![M, K]⟩ φ₁)
    (W : FVec Ideal ⟨2, ![N, K]⟩ φ₂) (h : (⟨2, ![N, K]⟩ : Shape).Transposes [1, 0] ⟨2, ![K, N]⟩) (p : Fin M) (q : Fin N) :
    FloatOps.matmul (DotDims.plain M K N) prec L (transpose ⟨2, ![K, N]⟩ [1, 0] W h) (constant ⟨2, ![M, N]⟩ .f32 0x00000000#32) (ix2 p q)
      = ∑ k : Fin K, L (ix2 p k) * W (ix2 q k) := by
  rw [matmul_zero_apply]
  refine Finset.sum_congr rfl fun k _ => ?_
  rw [transpose_ix2_apply]

theorem dotGeneral_transposed_apply {φ₁ φ₂ : FTy} (prec : Option ContractPrecision) (sched : HostSchedule) (L : FVec Ideal ⟨2, ![M, K]⟩ φ₁)
    (W : FVec Ideal ⟨2, ![N, K]⟩ φ₂) (h : (⟨2, ![N, K]⟩ : Shape).Transposes [1, 0] ⟨2, ![K, N]⟩) (p : Fin M) (q : Fin N) :
    FloatOps.dotGeneral (DotDims.plain M K N) prec sched L (transpose ⟨2, ![K, N]⟩ [1, 0] W h) (ix2 p q)
      = ∑ k : Fin K, L (ix2 p k) * W (ix2 q k) := by
  rw [dotGeneral_apply]
  refine Finset.sum_congr rfl fun k _ => ?_
  rw [transpose_ix2_apply]

end Cert.PlainDot

end
-- ==== Proof.LibRowBias.lean ====
/-
  A bias row read at an index.

  A vector [n] laid out as a one-row matrix [1, n] holds at (0, j) the vector's entry j; and a one-row matrix [1, n]
  broadcast down M rows holds at (p, j) its entry (0, j). The host's form of the two together — a vector [n] broadcast to
  [1, n] and then to [M, n] — holds at (p, j) the vector's entry j. A scalar broadcast to any shape holds the scalar
  everywhere. Generic in the extents and the element type.
-/
import Idealize.ShloMosaic.Lib.Pipeline.Value
import Idealize.ShloMosaic.Lib.ValueIdx

noncomputable section

namespace Cert.RowBias

open Idealize.ShloMosaic Idealize.ShloMosaic.ValueIdx

variable {α : Type} {M n : Nat}

/-- A one-row matrix broadcast down the rows: every row is the one row. -/
theorem rows_apply (v : (⟨2, ![1, n]⟩ : Shape).Idx → α) (hb : (⟨2, ![1, n]⟩ : Shape).Broadcasts ⟨2, ![M, n]⟩) (p : Fin M) (j : Fin n) :
    broadcastTo ⟨2, ![M, n]⟩ v hb (ix2 p j) = v (ix2 (0 : Fin 1) j) :=
  broadcastTo_apply v hb (ix2 p j) (ix2 (0 : Fin 1) j) fun a => match a with
    | ⟨0, _⟩ => by show (0 : ℕ) = if (1 : ℕ) = 1 then 0 else _; rw [if_pos rfl]
    | ⟨1, _⟩ => by
        show j.val = if n = 1 then 0 else j.val
        have := j.isLt
        split <;> omega

/-- A vector reshaped to a one-row matrix: the row is the vector. -/
theorem ofVec_apply (b : (⟨1, ![n]⟩ : Shape).Idx → α) (h : (⟨1, ![n]⟩ : Shape).ShapeCasts ⟨2, ![1, n]⟩) (j : Fin n) :
    shapeCast ⟨2, ![1, n]⟩ b h (ix2 (0 : Fin 1) j) = b (ix1 j) :=
  shapeCast_apply b h (ix2 (0 : Fin 1) j) (ix1 j) (by
    rw [Shape.rowMajor_val_one, Shape.rowMajor_val_two]
    show j.val = 0 * n + j.val
    omega)

/-- The host's bias: a vector broadcast to one row and then down the rows. -/
theorem hostRows_apply (b : (⟨1, ![n]⟩ : Shape).Idx → α) (h1 : (⟨1, ![n]⟩ : Shape).BroadcastsInDim ⟨2, ![1, n]⟩ ![1])
    (h2 : (⟨2, ![1, n]⟩ : Shape).BroadcastsInDim ⟨2, ![M, n]⟩ ![0, 1]) (p : Fin M) (j : Fin n) :
    broadcastInDim ⟨2, ![M, n]⟩ ![0, 1] h2 (broadcastInDim ⟨2, ![1, n]⟩ ![1] h1 b) (ix2 p j) = b (ix1 j) :=
  (broadcastInDim_apply ![0, 1] h2 _ (ix2 p j) (ix2 (0 : Fin 1) j) fun a => match a with
    | ⟨0, _⟩ => by show (0 : ℕ) = if (1 : ℕ) = 1 then 0 else _; rw [if_pos rfl]
    | ⟨1, _⟩ => by
        show j.val = if n = 1 then 0 else j.val
        have := j.isLt
        split <;> omega).trans
  (broadcastInDim_apply ![1] h1 b (ix2 (0 : Fin 1) j) (ix1 j) fun a => match a with
    | ⟨0, _⟩ => by
        show j.val = if n = 1 then 0 else j.val
        have := j.isLt
        split <;> omega)

/-- A scalar broadcast to a shape holds the scalar at every index. -/
theorem splat_apply {s : Shape} (x : (⟨0, ![]⟩ : Shape).Idx → α) (h : (⟨0, ![]⟩ : Shape).BroadcastsInDim s ![]) (i : s.Idx) :
    broadcastInDim s ![] h x i = x ix0 :=
  broadcastInDim_apply ![] h x i ix0 fun a => a.elim0

end Cert.RowBias

end
-- ==== Proof.Payload.lean ====
/-
  What the kernel body computes, entry by entry.

  The body sees a 32-row block of hx, a 128-row block of hy and the whole parameter arrays. It builds the [32,128,512]
  tensor max (hx[a,k] + hy[b,k] + b1[k]) 0, flattens the pair (a, b) to the row 128·a + b, multiplies by W2, adds b2,
  rectifies, multiplies by the column W3, adds b3, and folds the 4096 rows back to (a, b). Read at (a, b, 0) the result
  is the network of the specification at row a of the first block and row b of the second.
-/
import proofs.«138671_j56453050138736_1_alg».proof.Proof.Gen.KernelIdeal.Skeleton
import proofs.«138671_j56453050138736_1_alg».proof.Proof.Spec
import proofs.«138671_j56453050138736_1_alg».proof.Proof.LibPlainDot
import proofs.«138671_j56453050138736_1_alg».proof.Proof.LibRowBias
import Idealize.ShloMosaic.Lib.Pipeline.Value
import Idealize.ShloMosaic.Lib.ValueIdx
import Idealize.ShloMosaic.PureOps.Ideal.Laws

noncomputable section

open scoped BigOperators

namespace Cert.KernelIdeal.Body

open Cert.KernelIdeal Cert.KernelIdeal.Gen Idealize.ShloMosaic Idealize.ShloMosaic.ValueIdx Cert.PairScore

variable {α : Type}

/-- Row 128·a + b of the flattened pair axis. -/
abbrev flat (a : Fin 32) (b : Fin 128) : Fin 4096 := ⟨a.val * 128 + b.val, by have := a.isLt; have := b.isLt; omega⟩

/-! ## The layout steps, read at an index -/

/-- A [32,512] block given a middle unit axis and repeated along it: entry (a, b, k) is the block's (a, k). -/
theorem rows_first (v : S32x512.Idx → α) (a : Fin 32) (b : Fin 128) (k : Fin 512) :
    broadcastTo S32x128x512 (shapeCast S32x1x512 v shapeCasts_S32x512_S32x1x512) broadcasts_S32x1x512_S32x128x512 (ix3 a b k)
      = v (ix2 a k) := by
  rw [broadcastTo_apply _ broadcasts_S32x1x512_S32x128x512 (ix3 a b k) (ix3 a (0 : Fin 1) k) (fun d => match d with
    | ⟨0, _⟩ => by show a.val = if (32 : ℕ) = 1 then 0 else a.val; rw [if_neg (by decide)]
    | ⟨1, _⟩ => by show (0 : ℕ) = if (1 : ℕ) = 1 then 0 else b.val; rw [if_pos rfl]
    | ⟨2, _⟩ => by show k.val = if (512 : ℕ) = 1 then 0 else k.val; rw [if_neg (by decide)])]
  exact shapeCast_apply v shapeCasts_S32x512_S32x1x512 (ix3 a (0 : Fin 1) k) (ix2 a k) (by
    rw [Shape.rowMajor_val_two, Shape.rowMajor_val_three]
    show a.val * 512 + k.val = (a.val * 1 + 0) * 512 + k.val
    omega)

/-- A [128,512] block given a leading unit axis and repeated along it: entry (a, b, k) is the block's (b, k). -/
theorem rows_second (v : S128x512.Idx → α) (a : Fin 32) (b : Fin 128) (k : Fin 512) :
    broadcastTo S32x128x512 (shapeCast S1x128x512 v shapeCasts_S128x512_S1x128x512) broadcasts_S1x128x512_S32x128x512 (ix3 a b k)
      = v (ix2 b k) := by
  rw [broadcastTo_apply _ broadcasts_S1x128x512_S32x128x512 (ix3 a b k) (ix3 (0 : Fin 1) b k) (fun d => match d with
    | ⟨0, _⟩ => by show (0 : ℕ) = if (1 : ℕ) = 1 then 0 else a.val; rw [if_pos rfl]
    | ⟨1, _⟩ => by show b.val = if (128 : ℕ) = 1 then 0 else b.val; rw [if_neg (by decide)]
    | ⟨2, _⟩ => by show k.val = if (512 : ℕ) = 1 then 0 else k.val; rw [if_neg (by decide)])]
  exact shapeCast_apply v shapeCasts_S128x512_S1x128x512 (ix3 (0 : Fin 1) b k) (ix2 b k) (by
    rw [Shape.rowMajor_val_two, Shape.rowMajor_val_three]
    show b.val * 512 + k.val = (0 * 128 + b.val) * 512 + k.val
    omega)

/-- A [1,512] row given two leading unit axes and repeated along both: entry (a, b, k) is the row's (0, k). -/
theorem rows_bias (v : S1x512.Idx → α) (a : Fin 32) (b : Fin 128) (k : Fin 512) :
    broadcastTo S32x128x512 (shapeCast S1x1x512 v shapeCasts_S1x512_S1x1x512) broadcasts_S1x1x512_S32x128x512 (ix3 a b k)
      = v (ix2 (0 : Fin 1) k) := by
  rw [broadcastTo_apply _ broadcasts_S1x1x512_S32x128x512 (ix3 a b k) (ix3 (0 : Fin 1) (0 : Fin 1) k) (fun d => match d with
    | ⟨0, _⟩ => by show (0 : ℕ) = if (1 : ℕ) = 1 then 0 else a.val; rw [if_pos rfl]
    | ⟨1, _⟩ => by show (0 : ℕ) = if (1 : ℕ) = 1 then 0 else b.val; rw [if_pos rfl]
    | ⟨2, _⟩ => by show k.val = if (512 : ℕ) = 1 then 0 else k.val; rw [if_neg (by decide)])]
  exact shapeCast_apply v shapeCasts_S1x512_S1x1x512 (ix3 (0 : Fin 1) (0 : Fin 1) k) (ix2 (0 : Fin 1) k) (by
    rw [Shape.rowMajor_val_two, Shape.rowMajor_val_three]
    show 0 * 512 + k.val = (0 * 1 + 0) * 512 + k.val
    omega)

/-- The pair axes merged: row 128·a + b of the [4096,512] matrix is the tensor's (a, b, ·). -/
theorem flatten_apply (v : S32x128x512.Idx → α) (a : Fin 32) (b : Fin 128) (k : Fin 512) :
    shapeCast S4096x512 v shapeCasts_S32x128x512_S4096x512 (ix2 (flat a b) k) = v (ix3 a b k) :=
  shapeCast_apply v shapeCasts_S32x128x512_S4096x512 (ix2 (flat a b) k) (ix3 a b k) (by
    rw [Shape.rowMajor_val_two, Shape.rowMajor_val_three]
    show (a.val * 128 + b.val) * 512 + k.val = (a.val * 128 + b.val) * 512 + k.val
    rfl)

/-- The rows split back into pairs: entry (a, b, 0) of the [32,128,1] block is row 128·a + b of the column. -/
theorem unflatten_apply (v : S4096x1.Idx → α) (a : Fin 32) (b : Fin 128) (z : Fin 1) :
    shapeCast S32x128x1 v shapeCasts_S4096x1_S32x128x1 (ix3 a b z) = v (ix2 (flat a b) (0 : Fin 1)) :=
  shapeCast_apply v shapeCasts_S4096x1_S32x128x1 (ix3 a b z) (ix2 (flat a b) (0 : Fin 1)) (by
    rw [Shape.rowMajor_val_two, Shape.rowMajor_val_three]
    show (a.val * 128 + b.val) * 1 + 0 = (a.val * 128 + b.val) * 1 + z.val
    have := z.isLt
    omega)

/-! ## The three layers -/

/-- First layer on the blocks: the rectified sum of the two rows and the bias, one entry per pair and feature. -/
def hidden1 (x0 : FVec Ideal S32x512 .f32) (x1 : FVec Ideal S128x512 .f32) (x2 : FVec Ideal S1x512 .f32) :
    FVec Ideal S32x128x512 .f32 :=
  maximumf
    (addf
      (addf
        (broadcastTo S32x128x512 (shapeCast S32x1x512 (shapeCast S32x512 x0 shapeCasts_S32x512_S32x512) shapeCasts_S32x512_S32x1x512) broadcasts_S32x1x512_S32x128x512)
        (broadcastTo S32x128x512 (shapeCast S1x128x512 (shapeCast S128x512 x1 shapeCasts_S128x512_S128x512) shapeCasts_S128x512_S1x128x512) broadcasts_S1x128x512_S32x128x512))
      (broadcastTo S32x128x512 (shapeCast S1x1x512 (shapeCast S1x512 x2 shapeCasts_S1x512_S1x512) shapeCasts_S1x512_S1x1x512) broadcasts_S1x1x512_S32x128x512))
    (broadcast S32x128x512 (Scalar.ofBits .f32 0x00000000#32))

theorem hidden1_apply (x0 : FVec Ideal S32x512 .f32) (x1 : FVec Ideal S128x512 .f32) (x2 : FVec Ideal S1x512 .f32)
    (a : Fin 32) (b : Fin 128) (k : Fin 512) :
    hidden1 x0 x1 x2 (ix3 a b k) = max ((x0 (ix2 a k) + x1 (ix2 b k)) + x2 (ix2 (0 : Fin 1) k)) floor0 := by
  unfold hidden1
  rw [maximumf_apply, addf_apply, addf_apply, broadcast_apply, rows_first, rows_second, rows_bias,
    shapeCast_self, shapeCast_self, shapeCast_self]
  rfl

/-- Second layer on the flattened rows: the product with W2 plus the bias row, rectified. -/
def hidden2 (h : FVec Ideal S4096x512 .f32) (x3 : FVec Ideal S512x512 .f32) (x4 : FVec Ideal S1x512 .f32) :
    FVec Ideal S4096x512 .f32 :=
  maximumf
    (addf
      (matmul dot_S4096x512_S512x512_S4096x512_1_0_0_1_n_n none (truncf .bf16 h bitsLt_bf16_f32) (truncf .bf16 x3 bitsLt_bf16_f32)
        (constant S4096x512 .f32 0x00000000#32))
      (broadcastTo S4096x512 (shapeCast S1x512 x4 shapeCasts_S1x512_S1x512) broadcasts_S1x512_S4096x512))
    (broadcast S4096x512 (Scalar.ofBits .f32 0x00000000#32))

theorem hidden2_apply (h : FVec Ideal S4096x512 .f32) (x3 : FVec Ideal S512x512 .f32) (x4 : FVec Ideal S1x512 .f32)
    (r : Fin 4096) (q : Fin 512) :
    hidden2 h x3 x4 (ix2 r q) = max ((∑ k : Fin 512, h (ix2 r k) * x3 (ix2 k q)) + x4 (ix2 (0 : Fin 1) q)) floor0 := by
  have hm : matmul dot_S4096x512_S512x512_S4096x512_1_0_0_1_n_n none (truncf .bf16 h bitsLt_bf16_f32) (truncf .bf16 x3 bitsLt_bf16_f32)
      (constant S4096x512 .f32 0x00000000#32) (ix2 r q) = ∑ k : Fin 512, h (ix2 r k) * x3 (ix2 k q) :=
    Cert.PlainDot.matmul_zero_apply (M := 4096) (K := 512) (N := 512) none (truncf .bf16 h bitsLt_bf16_f32)
      (truncf .bf16 x3 bitsLt_bf16_f32) r q
  unfold hidden2
  rw [maximumf_apply, addf_apply, broadcast_apply, hm, Cert.RowBias.rows_apply, shapeCast_self]
  rfl

/-- Third layer: the product with the column W3 plus the scalar bias. -/
def out (h : FVec Ideal S4096x512 .f32) (x5 : FVec Ideal S512x1 .f32) (x6 : FVec Ideal S1x1 .f32) : FVec Ideal S4096x1 .f32 :=
  addf
    (matmul dot_S4096x512_S512x1_S4096x1_1_0_0_1_n_n none (truncf .bf16 h bitsLt_bf16_f32) (truncf .bf16 x5 bitsLt_bf16_f32)
      (constant S4096x1 .f32 0x00000000#32))
    (broadcastTo S4096x1 (shapeCast S1x1 x6 shapeCasts_S1x1_S1x1) broadcasts_S1x1_S4096x1)

theorem out_apply (h : FVec Ideal S4096x512 .f32) (x5 : FVec Ideal S512x1 .f32) (x6 : FVec Ideal S1x1 .f32) (r : Fin 4096) :
    out h x5 x6 (ix2 r (0 : Fin 1)) = (∑ q : Fin 512, h (ix2 r q) * x5 (ix2 q (0 : Fin 1))) + x6 (ix2 (0 : Fin 1) (0 : Fin 1)) := by
  have hm : matmul dot_S4096x512_S512x1_S4096x1_1_0_0_1_n_n none (truncf .bf16 h bitsLt_bf16_f32) (truncf .bf16 x5 bitsLt_bf16_f32)
      (constant S4096x1 .f32 0x00000000#32) (ix2 r (0 : Fin 1)) = ∑ q : Fin 512, h (ix2 r q) * x5 (ix2 q (0 : Fin 1)) :=
    Cert.PlainDot.matmul_zero_apply (M := 4096) (K := 512) (N := 1) none (truncf .bf16 h bitsLt_bf16_f32)
      (truncf .bf16 x5 bitsLt_bf16_f32) r (0 : Fin 1)
  unfold out
  rw [addf_apply, hm, Cert.RowBias.rows_apply, shapeCast_self]

/-! ## The body's value -/

/-- The body's stored value is the three layers composed, between the flattening and its inverse. -/
theorem pay_eq (x0 : FVec Ideal S32x512 .f32) (x1 : FVec Ideal S128x512 .f32) (x2 : FVec Ideal S1x512 .f32)
    (x3 : FVec Ideal S512x512 .f32) (x4 : FVec Ideal S1x512 .f32) (x5 : FVec Ideal S512x1 .f32) (x6 : FVec Ideal S1x1 .f32) :
    k0_pay1 (F := Ideal) x0 x1 x2 x3 x4 x5 x6
      = shapeCast S32x128x1
          (out (hidden2 (shapeCast S4096x512 (hidden1 x0 x1 x2) shapeCasts_S32x128x512_S4096x512) x3 x4) x5 x6)
          shapeCasts_S4096x1_S32x128x1 := rfl

/-- Entry (a, b, 0) of what the body stores: the network on row a of the first block and row b of the second. -/
theorem pay_apply (x0 : FVec Ideal S32x512 .f32) (x1 : FVec Ideal S128x512 .f32) (x2 : FVec Ideal S1x512 .f32)
    (x3 : FVec Ideal S512x512 .f32) (x4 : FVec Ideal S1x512 .f32) (x5 : FVec Ideal S512x1 .f32) (x6 : FVec Ideal S1x1 .f32)
    (a : Fin 32) (b : Fin 128) (z : Fin 1) :
    k0_pay1 (F := Ideal) x0 x1 x2 x3 x4 x5 x6 (ix3 a b z)
      = net (fun k => x0 (ix2 a k)) (fun k => x1 (ix2 b k)) (fun k => x2 (ix2 (0 : Fin 1) k)) (fun k q => x3 (ix2 k q))
          (fun q => x4 (ix2 (0 : Fin 1) q)) (fun q => x5 (ix2 q (0 : Fin 1))) (x6 (ix2 (0 : Fin 1) (0 : Fin 1))) := by
  rw [pay_eq, unflatten_apply, out_apply]
  unfold net
  refine congrArg (· + x6 (ix2 (0 : Fin 1) (0 : Fin 1))) (Finset.sum_congr rfl fun q _ => ?_)
  rw [hidden2_apply]
  refine congrArg (fun s => max (s + x4 (ix2 (0 : Fin 1) q)) floor0 * x5 (ix2 q (0 : Fin 1))) (Finset.sum_congr rfl fun k _ => ?_)
  rw [flatten_apply, hidden1_apply]

end Cert.KernelIdeal.Body

end
-- ==== Proof.Blocks.lean ====
/-
  From the blocks to the whole score array.

  Grid point (I, J) of the 16 × 4 grid works on rows 32·I … 32·I+31 of hx and rows 128·J … 128·J+127 of hy, reads the
  parameter arrays whole, and writes block (I, J, 0) of the [512,512,1] result. Entry (a, b, 0) of that block is the
  network at rows 32·I + a and 128·J + b, which is the score of that pair; the 64 blocks tile the result, so after the
  run the array holds every pair's score.
-/
import proofs.«138671_j56453050138736_1_alg».proof.Proof.Gen.KernelIdeal.Frame
import proofs.«138671_j56453050138736_1_alg».proof.Proof.Payload
import Idealize.ShloMosaic.Lib.Pipeline.Value
import Idealize.ShloMosaic.Lib.StableHlo.Run

set_option maxRecDepth 16384

noncomputable section

open scoped BigOperators

namespace Cert.KernelIdeal.Scores

open Cert.KernelIdeal Cert.KernelIdeal.Gen Idealize.ShloMosaic Idealize.ShloMosaic.TcCoe Idealize.ShloMosaic.ValueIdx
open Idealize.SL.Sem Cert.PairScore
open Idealize.ShloMosaic.Pipeline (Dat Cfg Window)

variable (m : (ℓ : Loc nD τ sig) → Buf (Elt Ideal) ℓ) (ρ : Dev nD → PrngReg)

/-! ## The arrays the region finds -/

/-- The projection of x by the upper half of W1, as the host computes it before the region. -/
abbrev hxOf (c : Dev nD) : FVec Ideal S512x512 .f32 :=
  Host.dotGeneral (φ₁ := .f32) (φ₂ := .f32) dot_S512x128_S128x512_S512x512_1_0_0_1_n_n none
    (m ((c.tc : Thread nD τ).loc main_arg0) : FVec Ideal S512x128 .f32)
    (extractStridedSlice S128x512 ![0, 0] (m ((c.tc : Thread nD τ).loc main_arg2) : FVec Ideal S256x512 .f32) slices_S256x512_S128x512_0_0)

/-- The projection of y by the lower half of W1. -/
abbrev hyOf (c : Dev nD) : FVec Ideal S512x512 .f32 :=
  Host.dotGeneral (φ₁ := .f32) (φ₂ := .f32) dot_S512x128_S128x512_S512x512_1_0_0_1_n_n none
    (m ((c.tc : Thread nD τ).loc main_arg1) : FVec Ideal S512x128 .f32)
    (extractStridedSlice S128x512 ![128, 0] (m ((c.tc : Thread nD τ).loc main_arg2) : FVec Ideal S256x512 .f32) slices_S256x512_S128x512_128_0)

theorem V_hx (c : Dev nD) : (V m c main_v2 : S512x512.Idx → EReal) = hxOf m c := by
  show StableHlo.after hostOps0 (fun b => m (c, b)) (Proc.devRef .tc main_v2) = _
  after_results

theorem V_hy (c : Dev nD) : (V m c main_v3 : S512x512.Idx → EReal) = hyOf m c := by
  show StableHlo.after hostOps0 (fun b => m (c, b)) (Proc.devRef .tc main_v3) = _
  after_results

/-- The bias vectors reach the region as one-row matrices. -/
theorem V_b1 (c : Dev nD) : (V m c main_v4 : S1x512.Idx → EReal)
    = shapeCast S1x512 (m ((c.tc : Thread nD τ).loc main_arg3)) shapeCasts_S512_S1x512 := by
  show StableHlo.after hostOps0 (fun b => m (c, b)) (Proc.devRef .tc main_v4) = _
  after_results
  rfl

theorem V_b2 (c : Dev nD) : (V m c main_v5 : S1x512.Idx → EReal)
    = shapeCast S1x512 (m ((c.tc : Thread nD τ).loc main_arg5)) shapeCasts_S512_S1x512 := by
  show StableHlo.after hostOps0 (fun b => m (c, b)) (Proc.devRef .tc main_v5) = _
  after_results
  rfl

theorem V_b3 (c : Dev nD) : (V m c main_v6 : S1x1.Idx → EReal)
    = shapeCast S1x1 (m ((c.tc : Thread nD τ).loc main_arg7)) shapeCasts_S1_S1x1 := by
  show StableHlo.after hostOps0 (fun b => m (c, b)) (Proc.devRef .tc main_v6) = _
  after_results
  rfl

/-- The score array over the arrays as launched: hx and hy the host's projections, the parameters the arguments. -/
abbrev G3 (c : Dev nD) : S512x512x1.Idx → EReal :=
  scores3 (hxOf m c) (hyOf m c) (m ((c.tc : Thread nD τ).loc main_arg3)) (m ((c.tc : Thread nD τ).loc main_arg4))
    (m ((c.tc : Thread nD τ).loc main_arg5)) (m ((c.tc : Thread nD τ).loc main_arg6)) (m ((c.tc : Thread nD τ).loc main_arg7))

/-! ## The index maps over the grid -/

theorem hz2 : (![0, 0] : Fin 2 → Nat) = fun _ => 0 := funext fun a => by fin_cases a <;> rfl
theorem hz3 : (![0, 0, 0] : Fin 3 → Nat) = fun _ => 0 := funext fun a => by fin_cases a <;> rfl

/-- Decided once over the 64 points: the hx block follows the output's first block index, the hy block its second,
    the parameter windows stay at the origin, and the output's block indices range over 16 × 4 × 1. -/
theorem idx_facts : ∀ t : Fin cfg0.N,
    win0_0.index t (0 : Fin 2) = win0_7.index t (0 : Fin 3) ∧ win0_0.index t (1 : Fin 2) = 0
    ∧ win0_1.index t (0 : Fin 2) = win0_7.index t (1 : Fin 3) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 3) ≤ 15 ∧ win0_7.index t (1 : Fin 3) ≤ 3 ∧ win0_7.index t (2 : Fin 3) = 0 :=
  (by decide +kernel : ∀ t : Fin grid0.N, _)

/-- Every block of the result is some point's. -/
theorem idx_onto : ∀ (q0 : Fin 16) (q1 : Fin 4), ∃ t : Fin cfg0.N, win0_7.index t = ![q0.val, q1.val, 0] :=
  (by decide +kernel : ∀ (q0 : Fin 16) (q1 : Fin 4), ∃ t : Fin grid0.N, win0_7.index t = ![q0.val, q1.val, 0])

/-! ## Each input block read at an entry -/

/-- The blocks at point t, at their literal types. -/
abbrev hxBlk (c : Dev nD) (t : Fin cfg0.N) : FVec Ideal S32x512 .f32 := iblk m c 0 t
abbrev hyBlk (c : Dev nD) (t : Fin cfg0.N) : FVec Ideal S128x512 .f32 := iblk m c 1 t
abbrev b1Blk (c : Dev nD) (t : Fin cfg0.N) : FVec Ideal S1x512 .f32 := iblk m c 2 t
abbrev w2Blk (c : Dev nD) (t : Fin cfg0.N) : FVec Ideal S512x512 .f32 := iblk m c 3 t
abbrev b2Blk (c : Dev nD) (t : Fin cfg0.N) : FVec Ideal S1x512 .f32 := iblk m c 4 t
abbrev w3Blk (c : Dev nD) (t : Fin cfg0.N) : FVec Ideal S512x1 .f32 := iblk m c 5 t
abbrev b3Blk (c : Dev nD) (t : Fin cfg0.N) : FVec Ideal S1x1 .f32 := iblk m c 6 t

/-- Row a of the hx block at point t is row 32·I + a of hx, I the output's first block index there. -/
theorem hxBlk_apply (c : Dev nD) (t : Fin cfg0.N) (a : Fin 32) (k : Fin 512) (i : Fin 512)
    (hi : i.val = win0_7.index t (0 : Fin 3) * 32 + a.val) :
    hxBlk m c t (ix2 a k) = hxOf m c (ix2 i k) := by
  rw [← V_hx]
  obtain ⟨e0, e1, -⟩ := idx_facts t
  show (V m c main_v2 : S512x512.Idx → EReal) (((cfg0.win 0).blk t).view.emb (ix2 a k)) = _
  refine congrArg (V m c main_v2 : S512x512.Idx → EReal) (funext fun d => Fin.ext ?_)
  match d with
  | ⟨0, _⟩ => show win0_0.index t (0 : Fin 2) * 32 + 1 * a.val = i.val; omega
  | ⟨1, _⟩ => show win0_0.index t (1 : Fin 2) * 512 + 1 * k.val = k.val; omega

/-- Row b of the hy block at point t is row 128·J + b of hy, J the output's second block index there. -/
theorem hyBlk_apply (c : Dev nD) (t : Fin cfg0.N) (b : Fin 128) (k : Fin 512) (j : Fin 512)
    (hj : j.val = win0_7.index t (1 : Fin 3) * 128 + b.val) :
    hyBlk m c t (ix2 b k) = hyOf m c (ix2 j k) := by
  rw [← V_hy]
  obtain ⟨-, -, e0, e1, -⟩ := idx_facts t
  show (V m c main_v3 : S512x512.Idx → EReal) (((cfg0.win 1).blk t).view.emb (ix2 b k)) = _
  refine congrArg (V m c main_v3 : S512x512.Idx → EReal) (funext fun d => Fin.ext ?_)
  match d with
  | ⟨0, _⟩ => show win0_1.index t (0 : Fin 2) * 128 + 1 * b.val = j.val; omega
  | ⟨1, _⟩ => show win0_1.index t (1 : Fin 2) * 512 + 1 * k.val = k.val; omega

/-- The b1 window is the whole one-row matrix: entry (0, k) is b1[k]. -/
theorem b1Blk_apply (c : Dev nD) (t : Fin cfg0.N) (k : Fin 512) :
    b1Blk m c t (ix2 (0 : Fin 1) k) = m ((c.tc : Thread nD τ).loc main_arg3) (ix1 k) := by
  obtain ⟨-, -, -, -, e0, e1, -⟩ := idx_facts t
  have h : b1Blk m c t (ix2 (0 : Fin 1) k) = (V m c main_v4 : S1x512.Idx → EReal) (ix2 (0 : Fin 1) k) := by
    show (V m c main_v4 : S1x512.Idx → EReal) (((cfg0.win 2).blk t).view.emb (ix2 (0 : Fin 1) k)) = _
    refine congrArg (V m c main_v4 : S1x512.Idx → EReal) (funext fun d => Fin.ext ?_)
    match d with
    | ⟨0, _⟩ => show win0_2.index t (0 : Fin 2) * 1 + 1 * 0 = 0; omega
    | ⟨1, _⟩ => show win0_2.index t (1 : Fin 2) * 512 + 1 * k.val = k.val; omega
  rw [h, V_b1]
  exact Cert.RowBias.ofVec_apply _ _ k

/-- The W2 window is the whole matrix. -/
theorem w2Blk_apply (c : Dev nD) (t : Fin cfg0.N) (k q : Fin 512) :
    w2Blk m c t (ix2 k q) = m ((c.tc : Thread nD τ).loc main_arg4) (ix2 k q) := by
  obtain ⟨-, -, -, -, -, -, e0, e1, -⟩ := idx_facts t
  rw [← V_main_arg4 m c]
  show (V m c main_arg4 : S512x512.Idx → EReal) (((cfg0.win 3).blk t).view.emb (ix2 k q)) = _
  refine congrArg (V m c main_arg4 : S512x512.Idx → EReal) (funext fun d => Fin.ext ?_)
  match d with
  | ⟨0, _⟩ => show win0_3.index t (0 : Fin 2) * 512 + 1 * k.val = k.val; omega
  | ⟨1, _⟩ => show win0_3.index t (1 : Fin 2) * 512 + 1 * q.val = q.val; omega

/-- The b2 window is the whole one-row matrix: entry (0, q) is b2[q]. -/
theorem b2Blk_apply (c : Dev nD) (t : Fin cfg0.N) (q : Fin 512) :
    b2Blk m c t (ix2 (0 : Fin 1) q) = m ((c.tc : Thread nD τ).loc main_arg5) (ix1 q) := by
  obtain ⟨-, -, -, -, -, -, -, -, e0, e1, -⟩ := idx_facts t
  have h : b2Blk m c t (ix2 (0 : Fin 1) q) = (V m c main_v5 : S1x512.Idx → EReal) (ix2 (0 : Fin 1) q) := by
    show (V m c main_v5 : S1x512.Idx → EReal) (((cfg0.win 4).blk t).view.emb (ix2 (0 : Fin 1) q)) = _
    refine congrArg (V m c main_v5 : S1x512.Idx → EReal) (funext fun d => Fin.ext ?_)
    match d with
    | ⟨0, _⟩ => show win0_4.index t (0 : Fin 2) * 1 + 1 * 0 = 0; omega
    | ⟨1, _⟩ => show win0_4.index t (1 : Fin 2) * 512 + 1 * q.val = q.val; omega
  rw [h, V_b2]
  exact Cert.RowBias.ofVec_apply _ _ q

/-- The W3 window is the whole column. -/
theorem w3Blk_apply (c : Dev nD) (t : Fin cfg0.N) (q : Fin 512) :
    w3Blk m c t (ix2 q (0 : Fin 1)) = m ((c.tc : Thread nD τ).loc main_arg6) (ix2 q (0 : Fin 1)) := by
  obtain ⟨-, -, -, -, -, -, -, -, -, -, e0, e1, -⟩ := idx_facts t
  rw [← V_main_arg6 m c]
  show (V m c main_arg6 : S512x1.Idx → EReal) (((cfg0.win 5).blk t).view.emb (ix2 q (0 : Fin 1))) = _
  refine congrArg (V m c main_arg6 : S512x1.Idx → EReal) (funext fun d => Fin.ext ?_)
  match d with
  | ⟨0, _⟩ => show win0_5.index t (0 : Fin 2) * 512 + 1 * q.val = q.val; omega
  | ⟨1, _⟩ => show win0_5.index t (1 : Fin 2) * 1 + 1 * 0 = 0; omega

/-- The b3 window is the one entry. -/
theorem b3Blk_apply (c : Dev nD) (t : Fin cfg0.N) :
    b3Blk m c t (ix2 (0 : Fin 1) (0 : Fin 1)) = m ((c.tc : Thread nD τ).loc main_arg7) (ix1 (0 : Fin 1)) := by
  obtain ⟨-, -, -, -, -, -, -, -, -, -, -, -, e0, e1, -⟩ := idx_facts t
  have h : b3Blk m c t (ix2 (0 : Fin 1) (0 : Fin 1)) = (V m c main_v6 : S1x1.Idx → EReal) (ix2 (0 : Fin 1) (0 : Fin 1)) := by
    show (V m c main_v6 : S1x1.Idx → EReal) (((cfg0.win 6).blk t).view.emb (ix2 (0 : Fin 1) (0 : Fin 1))) = _
    refine congrArg (V m c main_v6 : S1x1.Idx → EReal) (funext fun d => Fin.ext ?_)
    match d with
    | ⟨0, _⟩ => show win0_6.index t (0 : Fin 2) * 1 + 1 * 0 = 0; omega
    | ⟨1, _⟩ => show win0_6.index t (1 : Fin 2) * 1 + 1 * 0 = 0; omega
  rw [h, V_b3]
  exact Cert.RowBias.ofVec_apply _ _ (0 : Fin 1)

/-! ## What a point writes back, the cover, the array after the run -/

/-- What point t writes back is block t of the score array. -/
theorem flushed_eq (c : Dev nD) (t : Fin cfg0.N) :
    (dats m 0 c).flushed 7 t = ((cfg0.win 7).blk t).view.read (Elt Ideal) (G3 m c) := by
  show (cfg0.win 7).cut (grid0.coords t) ((dats m 0 c).after 7 t) = _
  rw [after0_7]
  unfold out0_7
  rw [View.canon_unit_zero hz3]
  simp only [View.ld_unit_zero (S := S32x512) hz2, View.ld_unit_zero (S := S128x512) hz2, View.ld_unit_zero (S := S1x512) hz2,
    View.ld_unit_zero (S := S512x512) hz2, View.ld_unit_zero (S := S512x1) hz2, View.ld_unit_zero (S := S1x1) hz2]
  funext y
  show k0_pay1 (F := Ideal) (hxBlk m c t) (hyBlk m c t) (b1Blk m c t) (w2Blk m c t) (b2Blk m c t) (w3Blk m c t) (b3Blk m c t) y
    = G3 m c (((cfg0.win 7).blk t).view.emb y)
  refine ((congrArg (k0_pay1 (F := Ideal) (hxBlk m c t) (hyBlk m c t) (b1Blk m c t) (w2Blk m c t) (b2Blk m c t) (w3Blk m c t) (b3Blk m c t))
    (eq_ix3 y)).trans (Body.pay_apply (hxBlk m c t) (hyBlk m c t) (b1Blk m c t) (w2Blk m c t) (b2Blk m c t) (w3Blk m c t) (b3Blk m c t)
      (y 0) (y 1) (y 2))).trans ?_
  show net _ _ _ _ _ _ _ = net _ _ _ _ _ _ _
  exact net_congr
    (fun k => hxBlk_apply m c t (y 0) k _ (by show win0_7.index t (0 : Fin 3) * 32 + 1 * (y 0).val = _; omega))
    (fun k => hyBlk_apply m c t (y 1) k _ (by show win0_7.index t (1 : Fin 3) * 128 + 1 * (y 1).val = _; omega))
    (fun k => b1Blk_apply m c t k) (fun k q => w2Blk_apply m c t k q) (fun q => b2Blk_apply m c t q)
    (fun q => w3Blk_apply m c t q) (b3Blk_apply m c t)

/-- An index of the result is in point t's block iff each coordinate is in the block's range on its axis. -/
theorem mem_blk (t : Fin cfg0.N) (i : S512x512x1.Idx) :
    i ∈ ((cfg0.win 7).blk t).view.set ↔ ∀ a : Fin 3, win0_7.index t a * S32x128x1.size a ≤ (i a).val
      ∧ (i a).val < win0_7.index t a * S32x128x1.size a + S32x128x1.size a := by
  show i ∈ ((View.whole main_v7).slice (win0_7.rect t)).set ↔ _
  rw [View.set_slice_whole, Rect.mem_set_unit]
  exact Iff.rfl

/-- Every entry of the result lies in the block of the point (i₀ / 32, i₁ / 128). -/
theorem cover (i : S512x512x1.Idx) : ∃ t : Fin cfg0.N, (cfg0.win 7).flush t = true ∧ i ∈ ((cfg0.win 7).blk t).view.set := by
  have hi0 : (i 0).val < 512 := (i 0).isLt
  have hi1 : (i 1).val < 512 := (i 1).isLt
  have hi2 : (i 2).val < 1 := (i 2).isLt
  obtain ⟨t, ht⟩ := idx_onto ⟨(i 0).val / 32, by omega⟩ ⟨(i 1).val / 128, by omega⟩
  have q0 : win0_7.index t (0 : Fin 3) = (i 0).val / 32 := congrFun ht 0
  have q1 : win0_7.index t (1 : Fin 3) = (i 1).val / 128 := congrFun ht 1
  have q2 : win0_7.index t (2 : Fin 3) = 0 := congrFun ht 2
  refine ⟨t, flush0_7 t, ?_⟩
  rw [mem_blk]
  intro a
  match a with
  | ⟨0, _⟩ => show win0_7.index t (0 : Fin 3) * 32 ≤ (i 0).val ∧ (i 0).val < win0_7.index t (0 : Fin 3) * 32 + 32; omega
  | ⟨1, _⟩ => show win0_7.index t (1 : Fin 3) * 128 ≤ (i 1).val ∧ (i 1).val < win0_7.index t (1 : Fin 3) * 128 + 128; omega
  | ⟨2, _⟩ => show win0_7.index t (2 : Fin 3) * 1 ≤ (i 2).val ∧ (i 2).val < win0_7.index t (2 : Fin 3) * 1 + 1; omega

/-- After the run the result array holds every pair's score. -/
theorem final (c : Dev nD) : (dats m 0 c).arrAt 7 cfg0.N = G3 m c :=
  (dats m 0 c).arrAt_eq_of_cover 7 (G3 m c) (fun t _ => flushed_eq m c t) cover

end Cert.KernelIdeal.Scores

end
-- ==== Proof.KernelRun.lean ====
/-
  The kernel program's run, with its result named.

  After the region the host drops the trailing unit axis of the [512,512,1] score array: entry (i, j) of the returned
  matrix is entry (i, j, 0) of the array, the score of the pair (i, j). The arguments end as launched.
-/
import proofs.«138671_j56453050138736_1_alg».proof.Proof.Blocks

set_option maxRecDepth 16384

noncomputable section

namespace Cert.KernelIdeal.Scores

open Cert.KernelIdeal Cert.KernelIdeal.Gen Idealize.ShloMosaic Idealize.ShloMosaic.TcCoe Idealize.ShloMosaic.ValueIdx
open Idealize.SL.Sem Cert.PairScore
open Idealize.ShloMosaic.Pipeline (Dat Cfg Window)

variable (m : (ℓ : Loc nD τ sig) → Buf (Elt Ideal) ℓ) (ρ : Dev nD → PrngReg)

/-- The score matrix over the arrays as launched. -/
abbrev G2 (c : Dev nD) : S512x512.Idx → EReal :=
  scores2 (hxOf m c) (hyOf m c) (m ((c.tc : Thread nD τ).loc main_arg3)) (m ((c.tc : Thread nD τ).loc main_arg4))
    (m ((c.tc : Thread nD τ).loc main_arg5)) (m ((c.tc : Thread nD τ).loc main_arg6)) (m ((c.tc : Thread nD τ).loc main_arg7))

/-- Dropping the unit axis: entry (i, j) reads the array's (i, j, 0). -/
theorem squeeze_apply {α : Type} (v : S512x512x1.Idx → α) (i : S512x512.Idx) :
    shapeCast S512x512 v shapeCasts_S512x512x1_S512x512 i = v (ix3 (i 0) (i 1) (0 : Fin 1)) :=
  shapeCast_apply v shapeCasts_S512x512x1_S512x512 i (ix3 (i 0) (i 1) (0 : Fin 1)) (by
    rw [Shape.rowMajor_val_two, Shape.rowMajor_val_three]
    show ((i 0).val * 512 + (i 1).val) * 1 + 0 = (i 0).val * 512 + (i 1).val
    omega)

/-- What the host leaves in the result buffer after the region: the score matrix. -/
theorem result_eq (c : Dev nD) :
    (Pipeline.afterTail₀ cfgs (dats m) 0 (V0 m) [hostOps1] c main_v8 : S512x512.Idx → EReal) = G2 m c := by
  unfold Pipeline.afterTail₀
  show StableHlo.after hostOps1 _ (Proc.devRef .tc main_v8) = _
  after_results
  funext i
  show shapeCast S512x512 (Pipeline.withArrays (cfgs 0).spec c (V0 m c) (fun w => (dats m 0 c).arrAt w (cfgs 0).N)
      (Proc.devRef .tc main_v7) : S512x512x1.Idx → EReal) shapeCasts_S512x512x1_S512x512 i = _
  rw [squeeze_apply]
  have hA : (Pipeline.withArrays (cfgs 0).spec c (V0 m c) (fun w => (dats m 0 c).arrAt w (cfgs 0).N)
      (Proc.devRef .tc main_v7) : S512x512x1.Idx → EReal) = G3 m c :=
    (Pipeline.withArrays_arr spec0 launch0.win.arr_inj c _ _ 7).trans (final m c)
  rw [hA]
  rfl

/-- Every weakly fair execution of the kernel program ends with the score matrix in its result and the arguments
    as launched. -/
theorem run : θ_run defs (onTc (τ := τ) (main (F := Ideal))) ⟨m, fun _ => 0, ρ⟩ (fun r => ∀ c : Dev nD,
      r.2.mem ((c.tc : Thread nD τ).loc main_v8) = G2 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨((h c).2 main_v8 (Pipeline.mem_restRefs_of main_v8 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).1 3).trans (((dats m 0 c).arrAt_in 3 rfl _).trans ((A_eq m c 3).trans (V_main_arg4 m c))),
      ((h c).2 main_arg5 (Pipeline.mem_restRefs_of main_arg5 (by decide) (by decide))).trans (W_main_arg5 m (dats m) c),
      ((h c).1 5).trans (((dats m 0 c).arrAt_in 5 rfl _).trans ((A_eq m c 5).trans (V_main_arg6 m c))),
      ((h c).2 main_arg7 (Pipeline.mem_restRefs_of main_arg7 (by decide) (by decide))).trans (W_main_arg7 m (dats m) c)⟩)
    (run_main m ρ)

end Cert.KernelIdeal.Scores

end
-- ==== Proof.RefValue.lean ====
/-
  The reference, entry by entry.

  The reference forms the full [512,512,512] tensor max (hx[i,k] + hy[j,k] + b1[k]) 0, contracts its last axis with W2,
  adds b2, rectifies, contracts with the column W3, adds b3 and drops the trailing unit axis. Read at (i, j), through the
  generated reading of each operation, that is the network of the specification at row i of hx and row j of hy.
-/
import proofs.«138671_j56453050138736_1_alg».proof.Proof.Gen.ReferenceIdeal.Read
import proofs.«138671_j56453050138736_1_alg».proof.Proof.Spec
import Idealize.ShloMosaic.Lib.ValueIdx

noncomputable section

open scoped BigOperators

namespace Cert.ReferenceIdeal.Scores

open Cert.ReferenceIdeal Cert.ReferenceIdeal.Gen Cert.ReferenceIdeal.Read Idealize.ShloMosaic Idealize.ShloMosaic.ValueIdx
open Cert.PairScore

variable (x0 x1 : (⟨S512x128, .f32⟩ : BufTy).Contents (Elt Ideal)) (x2 : (⟨S256x512, .f32⟩ : BufTy).Contents (Elt Ideal))
  (x3 : (⟨S512, .f32⟩ : BufTy).Contents (Elt Ideal)) (x4 : (⟨S512x512, .f32⟩ : BufTy).Contents (Elt Ideal))
  (x5 : (⟨S512, .f32⟩ : BufTy).Contents (Elt Ideal)) (x6 : (⟨S512x1, .f32⟩ : BufTy).Contents (Elt Ideal))
  (x7 : (⟨S1, .f32⟩ : BufTy).Contents (Elt Ideal))

/-- The first hidden layer at (i, j, k): the two projected rows' entries and the bias, rectified. -/
theorem hidden1_apply (i j k : Fin 512) :
    val_main_v12 (F := Ideal) x0 x1 x2 x3 (ix3 i j k)
      = max ((val_main_v2 (F := Ideal) x0 x2 (ix2 i k) + val_main_v3 (F := Ideal) x1 x2 (ix2 j k)) + x3 (ix1 k)) floor0 := by
  have e1 : idx_main_v4 (idx_main_v6 (ix3 i j k)) = ix2 i k :=
    funext fun a => Fin.ext (by match a with | ⟨0, _⟩ => rfl | ⟨1, _⟩ => rfl)
  have e2 : idx_main_v5 (idx_main_v7 (ix3 i j k)) = ix2 j k :=
    funext fun a => Fin.ext (by match a with | ⟨0, _⟩ => rfl | ⟨1, _⟩ => rfl)
  have e3 : idx_main_v9 (idx_main_v10 (ix3 i j k)) = ix1 k :=
    funext fun a => Fin.ext (by match a with | ⟨0, _⟩ => rfl)
  rw [val_main_v12_apply, val_main_v11_apply, val_main_v8_apply, val_main_v6_apply, val_main_v4_apply, val_main_v7_apply,
    val_main_v5_apply, val_main_v10_apply, val_main_v9_apply, val_main_call0_v0_apply, val_main_call0_cst_apply, e1, e2, e3]
  rfl

/-- The second hidden layer at (i, j, q): the first layer's row against column q of W2, plus b2[q], rectified. -/
theorem hidden2_apply (i j q : Fin 512) :
    val_main_v17 (F := Ideal) x0 x1 x2 x3 x4 x5 (ix3 i j q)
      = max ((∑ k : Fin 512, val_main_v12 (F := Ideal) x0 x1 x2 x3 (ix3 i j k) * x4 (ix2 k q)) + x5 (ix1 q)) floor0 := by
  have e1 : ∀ k : Fin 512, lidx_main_v13 (ix3 i j q) k = ix3 i j k := fun k =>
    funext fun a => Fin.ext (by match a with | ⟨0, _⟩ => rfl | ⟨1, _⟩ => rfl | ⟨2, _⟩ => rfl)
  have e2 : ∀ k : Fin 512, ridx_main_v13 (ix3 i j q) k = ix2 k q := fun k =>
    funext fun a => Fin.ext (by match a with | ⟨0, _⟩ => rfl | ⟨1, _⟩ => rfl)
  have e3 : idx_main_v14 (idx_main_v15 (ix3 i j q)) = ix1 q :=
    funext fun a => Fin.ext (by match a with | ⟨0, _⟩ => rfl)
  rw [val_main_v17_apply, val_main_v16_apply, val_main_v13_apply, val_main_v15_apply, val_main_v14_apply,
    val_main_call1_v0_apply, val_main_call1_cst_apply, e3]
  simp only [e1, e2]
  rfl

/-- The reference's result at (i, j) is the score of the pair. -/
theorem result_apply (i j : Fin 512) :
    val_main_v22 (F := Ideal) x0 x1 x2 x3 x4 x5 x6 x7 (ix2 i j)
      = score (val_main_v2 (F := Ideal) x0 x2) (val_main_v3 (F := Ideal) x1 x2) x3 x4 x5 x6 x7 i j := by
  have e0 : idx_main_v22 (ix2 i j) = ix3 i j (0 : Fin 1) := funext fun a => Fin.ext (by
    match a with
    | ⟨0, _⟩ => show (i.val * 512 + j.val) / 512 = i.val; have := j.isLt; omega
    | ⟨1, _⟩ => show (i.val * 512 + j.val) / 1 % 512 = j.val; have := j.isLt; omega
    | ⟨2, _⟩ => rfl)
  have e1 : ∀ q : Fin 512, lidx_main_v18 (ix3 i j (0 : Fin 1)) q = ix3 i j q := fun q =>
    funext fun a => Fin.ext (by match a with | ⟨0, _⟩ => rfl | ⟨1, _⟩ => rfl | ⟨2, _⟩ => rfl)
  have e2 : ∀ q : Fin 512, ridx_main_v18 (ix3 i j (0 : Fin 1)) q = ix2 q (0 : Fin 1) := fun q =>
    funext fun a => Fin.ext (by match a with | ⟨0, _⟩ => rfl | ⟨1, _⟩ => rfl)
  have e3 : idx_main_v19 (idx_main_v20 (ix3 i j (0 : Fin 1))) = ix1 (0 : Fin 1) :=
    funext fun a => Fin.ext (by match a with | ⟨0, _⟩ => rfl)
  rw [val_main_v22_apply, e0, val_main_v21_apply, val_main_v18_apply, val_main_v20_apply, val_main_v19_apply, e3]
  simp only [e1, e2, hidden2_apply, hidden1_apply]
  rfl

/-- The reference's whole result is the score matrix over its own projections. -/
theorem result_eq :
    val_main_v22 (F := Ideal) x0 x1 x2 x3 x4 x5 x6 x7
      = scores2 (val_main_v2 (F := Ideal) x0 x2) (val_main_v3 (F := Ideal) x1 x2) x3 x4 x5 x6 x7 :=
  funext fun idx => (congrArg (val_main_v22 (F := Ideal) x0 x1 x2 x3 x4 x5 x6 x7) (eq_ix2 idx)).trans
    (result_apply x0 x1 x2 x3 x4 x5 x6 x7 (idx 0) (idx 1))

end Cert.ReferenceIdeal.Scores

end
-- ==== Proof.lean ====
/-
  A pairwise scorer: for 512 rows x_i and 512 rows y_j the score of the pair (i, j) is a two-layer rectified network
  applied to the concatenation (x_i, y_j). The first linear layer splits over the concatenation, so with
  hx = x · W1[:128] and hy = y · W1[128:] the score is

    score[i,j] = Σ_q max (Σ_k max (hx[i,k] + hy[j,k] + b1[k]) 0 · W2[k,q] + b2[q]) 0 · W3[q,0] + b3[0].

  The kernel tiles the (i, j) plane into 16 × 4 blocks of 32 × 128 pairs, flattens each block's pairs into 4096 rows,
  and runs the two products on those rows; the reference builds the whole [512,512,512] tensor and contracts it. On the
  extended reals, where a change of float format is the identity and a product into a zero accumulator is the plain sum,
  both are this expression, term for term: the same sums over the same index sets, the same association of hx + hy + b1.
  No property of the inputs is used.

  The modules: Spec (the network and the score arrays), Payload (the kernel body at an entry), Blocks (blocks to the
  whole array), KernelRun (the kernel program's run with its result named), RefValue (the reference at an entry).
-/
import proofs.«138671_j56453050138736_1_alg».proof.Defs
import proofs.«138671_j56453050138736_1_alg».proof.Proof.Gen.Kernel
import proofs.«138671_j56453050138736_1_alg».proof.Proof.Gen.Kernel.Skeleton
import proofs.«138671_j56453050138736_1_alg».proof.Proof.Gen.Kernel.Launch
import proofs.«138671_j56453050138736_1_alg».proof.Proof.Gen.Kernel.Points
import proofs.«138671_j56453050138736_1_alg».proof.Proof.Gen.Kernel.Frame
import proofs.«138671_j56453050138736_1_alg».proof.Proof.Gen.KernelIdeal
import proofs.«138671_j56453050138736_1_alg».proof.Proof.Gen.KernelIdeal.Skeleton
import proofs.«138671_j56453050138736_1_alg».proof.Proof.Gen.KernelIdeal.Launch
import proofs.«138671_j56453050138736_1_alg».proof.Proof.Gen.KernelIdeal.Points
import proofs.«138671_j56453050138736_1_alg».proof.Proof.Gen.KernelIdeal.Frame
import proofs.«138671_j56453050138736_1_alg».proof.Proof.Gen.ReferenceIdeal
import proofs.«138671_j56453050138736_1_alg».proof.Proof.Gen.ReferenceIdeal.Run
import proofs.«138671_j56453050138736_1_alg».proof.Proof.Gen.ReferenceIdeal.Read
import proofs.«138671_j56453050138736_1_alg».proof.Proof.Gen.Pre_finite_inputs
import proofs.«138671_j56453050138736_1_alg».proof.Proof.KernelRun
import proofs.«138671_j56453050138736_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel program runs and keeps its arguments. -/
theorem frame_kernel : Cert.frame_Kernel := fun m ρ _ => Cert.Kernel.Gen.frame m ρ

/-- So does the kernel program read on the extended reals. -/
theorem frame_kernelIdeal : Cert.frame_KernelIdeal := fun m ρ _ => Cert.KernelIdeal.Gen.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the score matrix of those arguments: the reference's
    result is the score matrix over its own projections of x and y, and both programs form those projections by the
    same host operations (a slice of W1 and a plain product), so they are one term of the arguments. -/
theorem algebraic : Cert.algebraic_KernelIdeal_ReferenceIdeal := by
  intro m ρ m' ρ' _ hagree
  refine ⟨fun c => Cert.KernelIdeal.Scores.G2 m c, Cert.KernelIdeal.Scores.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7⟩ := hagree c
  rw [Cert.ReferenceIdeal.Read.val_main_v22_eq, Cert.ReferenceIdeal.Scores.result_eq, h0, h1, h2, h3, h4, h5, h6, h7]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
